-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S8x4096x512 : Shape := ⟨3, ![8, 4096, 512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x4096x512 : S_.BroadcastsInDim S8x4096x512 (![] : Fin 0 → Fin S8x4096x512.rank)
  reducesTo_S8x4096x512_S_d0_1_2 : S8x4096x512.ReducesTo [0, 1, 2] S_

variable [Facts]

def fn {F : FTy → Type} [FloatOps F] (main_arg0 : FVec F S8x8192x512 .f32) (main_arg1 : FVec F S8x4096x512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  main_v8
-- ==== Kernel.lean ====
abbrev S8x8192x512 : Shape := ⟨3, ![8, 8192, 512]⟩
abbrev S8x4096x512 : Shape := ⟨3, ![8, 4096, 512]⟩
abbrev S8x1024x4096 : Shape := ⟨3, ![8, 1024, 4096]⟩
abbrev S1x1024x512 : Shape := ⟨3, ![1, 1024, 512]⟩
abbrev S1x1024x1024 : Shape := ⟨3, ![1, 1024, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8x8192x512, .f32⟩
  | .hbm, ⟨1, _⟩ => ⟨S8x4096x512, .f32⟩
  | .hbm, ⟨2, _⟩ => ⟨S8x8192x512, .bf16⟩
  | .hbm, ⟨3, _⟩ => ⟨S8x4096x512, .bf16⟩
  | .hbm, ⟨4, _⟩ => ⟨S8x1024x4096, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  transposes_S1024x512_p1_0_S512x1024 : S1024x512.Transposes [1, 0] S512x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x8192x512.size a
  hwx0_0 : ∀ i : grid0.Coords, EltTy.bits .bf16 = 32 ∨ (Rect.block (s := S8x8192x512) S1x1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x4096x512.size a
  hwx0_1 : ∀ i : grid0.Coords, EltTy.bits .bf16 = 32 ∨ (Rect.block (s := S8x4096x512) S1x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x4096.size a
  hwx0_2 : ∀ i : grid0.Coords, EltTy.bits .f32 = 32 ∨ (Rect.block (s := S8x1024x4096) S1x1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x512 : Shape := ⟨3, ![8, 8192, 512]⟩
abbrev S8x4096x512 : Shape := ⟨3, ![8, 4096, 512]⟩
abbrev S8x8192x4096 : Shape := ⟨3, ![8, 8192, 4096]⟩
abbrev S8x8x1024x4096 : Shape := ⟨4, ![8, 8, 1024, 4096]⟩
abbrev S_ : Shape := ⟨0, ![]⟩
abbrev S8x1024x4096 : Shape := ⟨3, ![8, 1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x4096x512, .f32⟩
  | .hbm, ⟨2, _⟩ => ⟨S8x8192x4096, .f32⟩
  | .hbm, ⟨3, _⟩ => ⟨S8x8x1024x4096, .f32⟩
  | .hbm, ⟨4, _⟩ => ⟨S_, .f32⟩
  | .hbm, ⟨5, _⟩ => ⟨S8x1024x4096, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S8x8192x4096_S8x8x1024x4096 : S8x8192x4096.ShapeCasts S8x8x1024x4096
  reducesTo_S8x8x1024x4096_S8x1024x4096_d0 : S8x8x1024x4096.ReducesTo [0] S8x1024x4096
  h_S_ : 0 < S_.numel
  dot_S8x8192x512_S8x4096x512_S8x8192x4096_2_2_1_1_0_0_wf : DotDims.WF S8x8192x512 S8x4096x512 S8x8192x4096 [2] [2] [1] [1] [0] [0]

variable [Facts₀]

def dot_S8x8192x512_S8x4096x512_S8x8192x4096_2_2_1_1_0_0 : DotDims S8x8192x512 S8x4096x512 S8x8192x4096 where
  lhsContracting := [2]
  rhsContracting := [2]
  lhsNonContracting := [1]
  rhsNonContracting := [1]
  lhsBatch := [0]
  rhsBatch := [0]
  wf := dot_S8x8192x512_S8x4096x512_S8x8192x4096_2_2_1_1_0_0_wf

class Facts : Prop extends Facts₀ where

variable [Facts]
-- ==== Proof.BlockReads.lean ====
/-
  What the kernel's two input blocks hold at a grid point.

  The grid is 8 × 4 × 8 = 256 points; point `t` is band `t / 32`, column tile `t / 8 % 4`, source rank `t % 8` (the
  source rank varies fastest). Before the region the host casts `a` and `b` to bf16, which over the extended reals
  changes nothing. At point `t` the first block is rows `1024·(t / 32) …` of slab `t % 8` of `a`, and the second is
  rows `1024·(t / 8 % 4) …` of slab `t % 8` of `b`; both span the whole axis of length 512.
-/
import proofs.«178261_j68925635166437_1_alg».proof.Proof.Gen.KernelIdeal.Frame.Runs
import Idealize.ShloMosaic.Lib.ValueIdx
import Idealize.ShloMosaic.Lib.StableHlo.Run

noncomputable section

namespace Cert.ReduceScatter.Blocks

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The bf16 copies of the two arguments, as the region finds them. -/
abbrev aCast (c : Dev nD) : Vec Ideal S8x8192x512 .bf16 := V m c main_v0
abbrev bCast (c : Dev nD) : Vec Ideal S8x4096x512 .bf16 := V m c main_v1

/-- The two input blocks at a grid point. -/
abbrev aBlock (c : Dev nD) (t : Fin cfg0.N) : Vec Ideal S1x1024x512 .bf16 := iblk m c 0 t
abbrev bBlock (c : Dev nD) (t : Fin cfg0.N) : Vec Ideal S1x1024x512 .bf16 := iblk m c 1 t

/-- Over the extended reals the cast to bf16 is the identity: the copy of `a` is `a`. -/
theorem aCast_eq (c : Dev nD) : (aCast m c : S8x8192x512.Idx → EReal) = m ((c : Thread nD τ).loc main_arg0) := by
  dsimp only [aCast, V, hostOps0]
  after_results
  rfl

/-- … and the copy of `b` is `b`. -/
theorem bCast_eq (c : Dev nD) : (bCast m c : S8x4096x512.Idx → EReal) = m ((c : Thread nD τ).loc main_arg1) := by
  dsimp only [bCast, V, hostOps0]
  after_results
  rfl

/-- The first window's block index at point `t`: slab `t % 8`, band `t / 32`, the contracted axis whole. -/
theorem a_index : ∀ t : Fin cfg0.N, win0_0.index t (0 : Fin 3) = t.val % 8 ∧ win0_0.index t (1 : Fin 3) = t.val / 32 % 8
    ∧ win0_0.index t (2 : Fin 3) = 0 :=
  (by decide +kernel : ∀ t : Fin grid0.N, _)

/-- The second window's block index at point `t`: slab `t % 8`, column tile `t / 8 % 4`, the contracted axis whole. -/
theorem b_index : ∀ t : Fin cfg0.N, win0_1.index t (0 : Fin 3) = t.val % 8 ∧ win0_1.index t (1 : Fin 3) = t.val / 8 % 4
    ∧ win0_1.index t (2 : Fin 3) = 0 :=
  (by decide +kernel : ∀ t : Fin grid0.N, _)

/-- Entry `(p, k)` of the first block at point `t` is `a[t % 8, 1024·(t / 32) + p, k]`. -/
theorem aBlock_apply (c : Dev nD) (t : Fin cfg0.N) (p : Fin 1024) (k : Fin 512) :
    aBlock m c t (ix3 (0 : Fin 1) p k)
      = aCast m c (ix3 (⟨t.val % 8, Nat.mod_lt _ (by decide)⟩ : Fin 8) (⟨t.val / 32 % 8 * 1024 + p.val, by omega⟩ : Fin 8192) k) := by
  obtain ⟨e0, e1, e2⟩ := a_index t
  show V m c main_v0 (((cfg0.win 0).blk t).view.emb (ix3 (0 : Fin 1) p k)) = V m c main_v0 _
  refine congrArg (V m c main_v0) (funext fun a => Fin.ext ?_)
  match a with
  | ⟨0, _⟩ => show win0_0.index t (0 : Fin 3) * 1 + 1 * 0 = t.val % 8; omega
  | ⟨1, _⟩ => show win0_0.index t (1 : Fin 3) * 1024 + 1 * p.val = t.val / 32 % 8 * 1024 + p.val; omega
  | ⟨2, _⟩ => show win0_0.index t (2 : Fin 3) * 512 + 1 * k.val = k.val; omega

/-- Entry `(q, k)` of the second block at point `t` is `b[t % 8, 1024·(t / 8 % 4) + q, k]`. -/
theorem bBlock_apply (c : Dev nD) (t : Fin cfg0.N) (q : Fin 1024) (k : Fin 512) :
    bBlock m c t (ix3 (0 : Fin 1) q k)
      = bCast m c (ix3 (⟨t.val % 8, Nat.mod_lt _ (by decide)⟩ : Fin 8) (⟨t.val / 8 % 4 * 1024 + q.val, by omega⟩ : Fin 4096) k) := by
  obtain ⟨e0, e1, e2⟩ := b_index t
  show V m c main_v1 (((cfg0.win 1).blk t).view.emb (ix3 (0 : Fin 1) q k)) = V m c main_v1 _
  refine congrArg (V m c main_v1) (funext fun a => Fin.ext ?_)
  match a with
  | ⟨0, _⟩ => show win0_1.index t (0 : Fin 3) * 1 + 1 * 0 = t.val % 8; omega
  | ⟨1, _⟩ => show win0_1.index t (1 : Fin 3) * 1024 + 1 * q.val = t.val / 8 % 4 * 1024 + q.val; omega
  | ⟨2, _⟩ => show win0_1.index t (2 : Fin 3) * 512 + 1 * k.val = k.val; omega

end Cert.ReduceScatter.Blocks

end
-- ==== Proof.BodyAtIndex.lean ====
/-
  One grid step of the kernel body, read at an index over the extended reals.

  The body holds a 1024 × 1024 tile of the output (with a leading unit axis) and two 1024 × 512 blocks, `x` of `a`
  and `y` of `b`. At the first source rank it overwrites the tile with zeros; then at every source rank it adds
  `x · yᵀ` to the tile: the block of `b` is transposed to 512 × 1024 and the matrix unit contracts the axis of
  length 512 into a zero accumulator. At entry `(p, q)` of the tile the step therefore adds
  `Σ_{k < 512} x[p, k] · y[q, k]` to what the tile held.
-/
import proofs.«178261_j68925635166437_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.ReduceScatter.Body

open Cert.KernelIdeal Cert.KernelIdeal.Gen
open Idealize.ShloMosaic Idealize.ShloMosaic.ValueIdx

/-! ## The matrix product's operand indices: rows × contraction times contraction × columns -/

theorem lhs_row (j : S1024x1024.Idx) (q : dot_S1024x512_S512x1024_S1024x1024_1_0_0_1_n_n.contr.Idx) :
    (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_contr (j : S1024x1024.Idx) (q : dot_S1024x512_S512x1024_S1024x1024_1_0_0_1_n_n.contr.Idx) :
    (dot_S1024x512_S512x1024_S1024x1024_1_0_0_1_n_n.lhsIdx j q 1).val = (q ⟨0, by decide⟩).val :=
  dot_S1024x512_S512x1024_S1024x1024_1_0_0_1_n_n.lhsIdx_val_of_single rfl j q
theorem rhs_contr (j : S1024x1024.Idx) (q : dot_S1024x512_S512x1024_S1024x1024_1_0_0_1_n_n.contr.Idx) :
    (dot_S1024x512_S512x1024_S1024x1024_1_0_0_1_n_n.rhsIdx j q 0).val = (q ⟨0, by decide⟩).val :=
  dot_S1024x512_S512x1024_S1024x1024_1_0_0_1_n_n.rhsIdx_val_of_single rfl j q
theorem rhs_col (j : S1024x1024.Idx) (q : dot_S1024x512_S512x1024_S1024x1024_1_0_0_1_n_n.contr.Idx) :
    (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The matrix unit into a zero accumulator: entry `(p, q)` is the plain sum of products along the contracted axis. -/
theorem matmul_at (x : FVec Ideal S1024x512 .bf16) (y : FVec Ideal S512x1024 .bf16) (p q : Fin 1024) :
    matmul dot_S1024x512_S512x1024_S1024x1024_1_0_0_1_n_n none x y (constant S1024x1024 .f32 0x00000000#32) (ix2 p q)
      = ∑ k : Fin 512, x (ix2 p k) * y (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_row _ _
    | ⟨1, _⟩ => exact (lhs_contr _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_contr _ _).trans hk
    | ⟨1, _⟩ => exact rhs_col _ _)
  rw [el, er]

/-! ## The two stores' values -/

/-- The reset writes the extended real zero everywhere. -/
theorem reset_apply (j : S1x1024x1024.Idx) : k0_pay1 (F := Ideal) j = 0 := by
  obtain ⟨u, p, q, rfl⟩ : ∃ (u : Fin 1) (p q : Fin 1024), j = ix3 u p q := ⟨j 0, j 1, j 2, eq_ix3 j⟩
  unfold k0_pay1
  rw [shapeCast_ab_1ab_apply]
  show Ideal.ofBits .f32 0x00000000#32 = 0
  exact Ideal.ofBits_zero_f32

/-- The accumulating store at `(p, q)`: what the tile held there, plus `Σ_k x[p, k] · y[q, k]`. -/
theorem step_apply (x y : Vec Ideal S1x1024x512 .bf16) (acc : Vec Ideal S1x1024x1024 .f32) (u : Fin 1) (p q : Fin 1024) :
    k0_pay2 (F := Ideal) x y acc (ix3 u p q) = acc (ix3 u p q) + ∑ k : Fin 512, x (ix3 (0 : Fin 1) p k) * y (ix3 (0 : Fin 1) q k) := by
  have hu : u = 0 := Fin.ext (by omega)
  subst hu
  unfold k0_pay2
  rw [shapeCast_ab_1ab_apply, addf_apply, shapeCast_1ab_ab_apply, matmul_at]
  refine congrArg (_ + ·) (Finset.sum_congr rfl fun k _ => ?_)
  rw [shapeCast_1ab_ab_apply, transpose_ix2_apply, shapeCast_1ab_ab_apply]

end Cert.ReduceScatter.Body

end
-- ==== Proof.ReduceScatterSpec.lean ====
/-
  The function both programs compute, over the extended reals.

  Eight ranks each hold a slab `a[s] : [8192, 512]` and a slab `b[s] : [4096, 512]`. Rank `s` forms the partial
  product `a[s] · b[s]ᵀ : [8192, 4096]`; the 8192 rows are cut into eight bands of 1024 and band `d` belongs to
  rank `d`. The reduce-scatter gives rank `d` the sum over the source ranks `s` of band `d` of the partial
  products:

      out[d, p, n] = Σ_{s < 8} Σ_{k < 512} a[s, 1024·d + p, k] · b[s, n, k].

  Nothing here needs the entries to be finite: the two programs differ only in how the double sum is grouped, and
  addition of extended reals is commutative and associative.
-/
import Idealize.ShloMosaic.PureOps.Ideal
import Idealize.ShloMosaic.Lib.ValueIdx

noncomputable section

namespace Cert.ReduceScatter

open Idealize.ShloMosaic Idealize.ShloMosaic.ValueIdx

/-- Row `p` of band `d` is row `1024·d + p` of the 8192. -/
def bandRow (d : Fin 8) (p : Fin 1024) : Fin 8192 := ⟨d.val * 1024 + p.val, by omega⟩

theorem bandRow_val (d : Fin 8) (p : Fin 1024) : (bandRow d p).val = d.val * 1024 + p.val := rfl

/-- One entry of rank `s`'s partial product `a[s] · b[s]ᵀ`: row `r`, column `n`. -/
def partialDot (a : (⟨3, ![8, 8192, 512]⟩ : Shape).Idx → EReal) (b : (⟨3, ![8, 4096, 512]⟩ : Shape).Idx → EReal)
    (s : Fin 8) (r : Fin 8192) (n : Fin 4096) : EReal :=
  ∑ k : Fin 512, a (ix3 s r k) * b (ix3 s n k)

/-- The reduce-scattered product: entry `(d, p, n)` sums band `d`'s row `p`, column `n`, over the source ranks. -/
def result (a : (⟨3, ![8, 8192, 512]⟩ : Shape).Idx → EReal) (b : (⟨3, ![8, 4096, 512]⟩ : Shape).Idx → EReal) :
    (⟨3, ![8, 1024, 4096]⟩ : Shape).Idx → EReal :=
  fun i => ∑ s : Fin 8, partialDot a b s (bandRow (i 0) (i 1)) (i 2)

end Cert.ReduceScatter

end
-- ==== Proof.KernelSum.lean ====
/-
  The kernel's result array is the reduce-scattered product.

  The output tile of band `d` and column tile `j` is visited by the eight consecutive grid points
  `32·d + 8·j + s`, `s = 0 … 7` — one per source rank — and written back after the last. The first of them resets
  the tile to zero and every one adds its block product, so what is written back at `(p, q)` is
  `0 + Σ_{s < 8} Σ_k a[s, 1024·d + p, k] · b[s, 1024·j + q, k]`. The tiles cover the array, and entry `(d, p, n)`
  lies in tile `(d, n / 1024)` at `(p, n % 1024)`; so the array ends holding `Σ_s Σ_k a[s, 1024·d + p, k] · b[s, n, k]`.
-/
import proofs.«178261_j68925635166437_1_alg».proof.Proof.Gen.KernelIdeal.Value
import proofs.«178261_j68925635166437_1_alg».proof.Proof.BlockReads
import proofs.«178261_j68925635166437_1_alg».proof.Proof.BodyAtIndex
import proofs.«178261_j68925635166437_1_alg».proof.Proof.ReduceScatterSpec

noncomputable section

namespace Cert.ReduceScatter.Kernel

open Cert.KernelIdeal Cert.KernelIdeal.Gen Cert.KernelIdeal.Value
open Cert.ReduceScatter.Blocks Cert.ReduceScatter.Body
open Idealize.ShloMosaic Idealize.ShloMosaic.TcCoe Idealize.ShloMosaic.ValueIdx Idealize.SL.Sem

variable (m : (ℓ : Loc nD τ sig) → Buf (Elt Ideal) ℓ)

/-- What grid point `n` adds to its tile at entry `y = (·, p, q)`: the product of row `p` of its block of `a` with
    row `q` of its block of `b`. (Stated for every natural `n`; only `n < 256` is ever used.) -/
def addend (c : Dev nD) (n : ℕ) (y : S1x1024x1024.Idx) : EReal :=
  ∑ k : Fin 512,
    aCast m c (ix3 (⟨n % 8, Nat.mod_lt _ (by decide)⟩ : Fin 8)
        (⟨n / 32 % 8 * 1024 + (y 1).val, by have h1 : (y 1).val < 1024 := (y 1).isLt; omega⟩ : Fin 8192) k)
      * bCast m c (ix3 (⟨n % 8, Nat.mod_lt _ (by decide)⟩ : Fin 8)
        (⟨n / 8 % 4 * 1024 + (y 2).val, by have h2 : (y 2).val < 1024 := (y 2).isLt; omega⟩ : Fin 4096) k)

/-- An accumulating point leaves what the tile held plus its addend. -/
theorem step_at (c : Dev nD) (n : ℕ) (h : n < cfg0.N) (acc : Vec Ideal S1x1024x1024 .f32) (y : S1x1024x1024.Idx) :
    step2 m c n h acc y = acc y + addend m c n y := by
  obtain ⟨u, p, q, rfl⟩ : ∃ (u : Fin 1) (p q : Fin 1024), y = ix3 u p q := ⟨y 0, y 1, y 2, eq_ix3 y⟩
  show k0_pay2 (F := Ideal) (aBlock m c ⟨n, h⟩) (bBlock m c ⟨n, h⟩) acc (ix3 u p q) = _
  rw [step_apply]
  refine congrArg (_ + ·) (Finset.sum_congr rfl fun k _ => ?_)
  rw [aBlock_apply, bBlock_apply]

/-- The resetting point leaves zero plus its addend. -/
theorem reset_at (c : Dev nD) (n : ℕ) (h : n < cfg0.N) (y : S1x1024x1024.Idx) :
    reset2 m c n h y = (0 : EReal) + addend m c n y := by
  obtain ⟨u, p, q, rfl⟩ : ∃ (u : Fin 1) (p q : Fin 1024), y = ix3 u p q := ⟨y 0, y 1, y 2, eq_ix3 y⟩
  show k0_pay2 (F := Ideal) (aBlock m c ⟨n, h⟩) (bBlock m c ⟨n, h⟩) (k0_pay1 (F := Ideal)) (ix3 u p q) = _
  rw [step_apply, reset_apply]
  refine congrArg (_ + ·) (Finset.sum_congr rfl fun k _ => ?_)
  rw [aBlock_apply, bBlock_apply]

/-- The tile after the eight points `b … b + 7` of one run: the sum of the eight addends (the zero it started from
    drops out). -/
theorem fold_at (c : Dev nD) (b : ℕ) (h : b + 7 < cfg0.N) (y : S1x1024x1024.Idx) :
    (Pipeline.accAt (reset2 m c) (step2 m c) b 7 h y : EReal) = ∑ s : Fin 8, addend m c (b + s.val) y := by
  have e : (Pipeline.accAt (reset2 m c) (step2 m c) b 7 h y : EReal) = (0 : EReal) + ∑ s ∈ Finset.range 8, addend m c (b + s) y :=
    Pipeline.accAt_add_apply (ι := S1x1024x1024.Idx) (β := EReal) (reset2 m c) (step2 m c) (fun _ => 0) (addend m c) b 7
      (fun h y => reset_at m c b h y) (fun n h acc y _ _ => step_at m c n h acc y) 7 le_rfl h y
  rw [e, zero_add, Finset.sum_range]

/-- Point `8·(4·d + n / 1024) + s` reads slab `s` and band `d` of `a`; entry `p` of the band is row `1024·d + p`. -/
theorem a_entry (i : S8x1024x4096.Idx) (s : Fin 8) (k : Fin 512) (hx hy) :
    (ix3 (⟨(8 * run2Of i + s.val) % 8, hx⟩ : Fin 8) (⟨(8 * run2Of i + s.val) / 32 % 8 * 1024 + (loc2Of i 1).val, hy⟩ : Fin 8192) k)
      = ix3 s (bandRow (i 0) (i 1)) k := by
  have h0 : (i 0).val < 8 := (i 0).isLt
  have h1 : (i 1).val < 1024 := (i 1).isLt
  have h2 : (i 2).val < 4096 := (i 2).isLt
  have hs : s.val < 8 := s.isLt
  funext a; apply Fin.ext
  match a with
  | ⟨0, _⟩ =>
    show (8 * (4 * ((i 0).val / 1 - 0) + 4 * ((i 1).val / 1024 - 0) + 1 * ((i 2).val / 1024 - 0)) + s.val) % 8 = s.val
    omega
  | ⟨1, _⟩ =>
    show (8 * (4 * ((i 0).val / 1 - 0) + 4 * ((i 1).val / 1024 - 0) + 1 * ((i 2).val / 1024 - 0)) + s.val) / 32 % 8 * 1024 + (i 1).val % 1024
      = (i 0).val * 1024 + (i 1).val
    omega
  | ⟨2, _⟩ => rfl

/-- … and slab `s`, column tile `n / 1024` of `b`; entry `n % 1024` of the tile is row `n`. -/
theorem b_entry (i : S8x1024x4096.Idx) (s : Fin 8) (k : Fin 512) (hx hy) :
    (ix3 (⟨(8 * run2Of i + s.val) % 8, hx⟩ : Fin 8) (⟨(8 * run2Of i + s.val) / 8 % 4 * 1024 + (loc2Of i 2).val, hy⟩ : Fin 4096) k)
      = ix3 s (i 2) k := by
  have h0 : (i 0).val < 8 := (i 0).isLt
  have h1 : (i 1).val < 1024 := (i 1).isLt
  have h2 : (i 2).val < 4096 := (i 2).isLt
  have hs : s.val < 8 := s.isLt
  funext a; apply Fin.ext
  match a with
  | ⟨0, _⟩ =>
    show (8 * (4 * ((i 0).val / 1 - 0) + 4 * ((i 1).val / 1024 - 0) + 1 * ((i 2).val / 1024 - 0)) + s.val) % 8 = s.val
    omega
  | ⟨1, _⟩ =>
    show (8 * (4 * ((i 0).val / 1 - 0) + 4 * ((i 1).val / 1024 - 0) + 1 * ((i 2).val / 1024 - 0)) + s.val) / 8 % 4 * 1024 + (i 2).val % 1024
      = (i 2).val
    omega
  | ⟨2, _⟩ => rfl

/-- The array the kernel leaves is the reduce-scattered product of its two arguments. -/
theorem value_eq (c : Dev nD) :
    G2 m c = result (m ((c : Thread nD τ).loc main_arg0)) (m ((c : Thread nD τ).loc main_arg1)) := by
  funext i
  have h0 : (i 0).val < 8 := (i 0).isLt
  have h1 : (i 1).val < 1024 := (i 1).isLt
  have h2 : (i 2).val < 4096 := (i 2).isLt
  have hN : cfg0.N = 256 := N_0
  have hr : run2Of i = 4 * (i 0).val + (i 2).val / 1024 := by
    show 4 * ((i 0).val / 1 - 0) + 4 * ((i 1).val / 1024 - 0) + 1 * ((i 2).val / 1024 - 0) = _
    omega
  unfold G2
  rw [dif_pos (by rw [hr, hN]; omega)]
  refine (fold_at m c _ _ _).trans ?_
  unfold result
  refine Finset.sum_congr rfl fun s _ => ?_
  unfold addend partialDot
  refine Finset.sum_congr rfl fun k _ => ?_
  rw [a_entry, b_entry, aCast_eq, bCast_eq]
  rfl

end Cert.ReduceScatter.Kernel

end
-- ==== Proof.ReferenceSum.lean ====
/-
  The reference program's result is the reduce-scattered product.

  The reference forms all eight partial products at once (a batched `dot_general`, batch axis the rank, the axis of
  length 512 contracted), regroups the 8192 rows as 8 bands × 1024 rows (a reshape: row `r` is band `r / 1024`, row
  `r % 1024` of the band), and sums over the source rank from the initial value zero. Read at an output index
  `(d, p, n)` this is `0 + Σ_s (a[s] · b[s]ᵀ)[1024·d + p, n]`: the reshape's flat position
  `((8·s + d)·1024 + p)·4096 + n` splits back into rank `s`, row `1024·d + p`, column `n`.
-/
import proofs.«178261_j68925635166437_1_alg».proof.Proof.Gen.ReferenceIdeal.Read
import proofs.«178261_j68925635166437_1_alg».proof.Proof.ReduceScatterSpec

noncomputable section

namespace Cert.ReduceScatter.Reference

open Cert.ReferenceIdeal Cert.ReferenceIdeal.Gen Cert.ReferenceIdeal.Read
open Idealize.ShloMosaic Idealize.ShloMosaic.ValueIdx

/-- The flat position of `(s, d, p, n)` in the regrouped array, split back along `[8, 8192, 4096]`, has rank `s`,
    row `1024·d + p` and column `n`; followed by the contraction's left index at `k`. -/
theorem left_index (i : S8x1024x4096.Idx) (s : Fin 8) (k : Fin 512) :
    lidx_main_v0 (idx_main_v1 (idx_main_v2 i s)) k = ix3 s (bandRow (i 0) (i 1)) k := by
  have h0 : (i 0).val < 8 := (i 0).isLt
  have h1 : (i 1).val < 1024 := (i 1).isLt
  have h2 : (i 2).val < 4096 := (i 2).isLt
  have hs : s.val < 8 := s.isLt
  funext a; apply Fin.ext
  match a with
  | ⟨0, _⟩ =>
    show (((s.val * 8 + (i 0).val) * 1024 + (i 1).val) * 4096 + (i 2).val) / 33554432 = s.val
    omega
  | ⟨1, _⟩ =>
    show (((s.val * 8 + (i 0).val) * 1024 + (i 1).val) * 4096 + (i 2).val) / 4096 % 8192 = (i 0).val * 1024 + (i 1).val
    omega
  | ⟨2, _⟩ => rfl

/-- The same for the contraction's right index: rank `s`, row `n` of `b`. -/
theorem right_index (i : S8x1024x4096.Idx) (s : Fin 8) (k : Fin 512) :
    ridx_main_v0 (idx_main_v1 (idx_main_v2 i s)) k = ix3 s (i 2) k := by
  have h0 : (i 0).val < 8 := (i 0).isLt
  have h1 : (i 1).val < 1024 := (i 1).isLt
  have h2 : (i 2).val < 4096 := (i 2).isLt
  have hs : s.val < 8 := s.isLt
  funext a; apply Fin.ext
  match a with
  | ⟨0, _⟩ =>
    show (((s.val * 8 + (i 0).val) * 1024 + (i 1).val) * 4096 + (i 2).val) / 33554432 = s.val
    omega
  | ⟨1, _⟩ =>
    show (((s.val * 8 + (i 0).val) * 1024 + (i 1).val) * 4096 + (i 2).val) % 4096 = (i 2).val
    omega
  | ⟨2, _⟩ => rfl

/-- The reference's last stage, as a function of the two argument arrays, is the reduce-scattered product. -/
theorem value_eq (a : (⟨S8x8192x512, .f32⟩ : BufTy).Contents (Elt Ideal)) (b : (⟨S8x4096x512, .f32⟩ : BufTy).Contents (Elt Ideal)) :
    val_main_v2 (F := Ideal) a b = result a b := by
  funext i
  rw [val_main_v2_apply, val_main_cst_apply]
  show Ideal.ofBits .f32 0x00000000#32 + _ = _
  rw [Ideal.ofBits_zero_f32, zero_add]
  unfold result
  refine Finset.sum_congr rfl fun s _ => ?_
  rw [val_main_v1_apply, val_main_v0_apply]
  unfold partialDot
  refine Finset.sum_congr rfl fun k _ => ?_
  rw [left_index, right_index]
  rfl

end Cert.ReduceScatter.Reference

end
-- ==== Proof.lean ====
/-
  The kernel computes a matrix product followed by a reduce-scatter, fused:

      out[d, p, n] = Σ_{s < 8} Σ_{k < 512} a[s, 1024·d + p, k] · b[s, n, k].

  The kernel tiles the output into 8 × 4 tiles of 1024 × 1024 and walks the source ranks `s` on the innermost grid
  axis, resetting a tile to zero at `s = 0` and adding the block product `a[s]-block · (b[s]-block)ᵀ` at every `s`; the
  operands are cast to bf16 first, which over the extended reals is the identity. The reference forms all eight
  partial products `a[s] · b[s]ᵀ`, regroups their 8192 rows into 8 bands of 1024, and sums over `s`.
  Both are the double sum above (`Cert.ReduceScatter.result`): the kernel's by unrolling the eight-point fold of each
  tile (`Kernel.value_eq`), the reference's by reading its three operations at an index (`Reference.value_eq`).
  Only the grouping of the sum differs, so finiteness of the inputs is never used.
-/
import proofs.«178261_j68925635166437_1_alg».proof.Defs
import proofs.«178261_j68925635166437_1_alg».proof.Proof.Gen.Kernel.Frame
import proofs.«178261_j68925635166437_1_alg».proof.Proof.Gen.KernelIdeal.Value
import proofs.«178261_j68925635166437_1_alg».proof.Proof.Gen.Pre_finite_inputs
import proofs.«178261_j68925635166437_1_alg».proof.Proof.Gen.ReferenceIdeal.Run
import proofs.«178261_j68925635166437_1_alg».proof.Proof.Gen.ReferenceIdeal.Read
import proofs.«178261_j68925635166437_1_alg».proof.Proof.KernelSum
import proofs.«178261_j68925635166437_1_alg».proof.Proof.ReferenceSum
import Idealize.ShloMosaic.Adequacy
import Idealize.ShloMosaic.Init

noncomputable section

namespace Cert.Proof

open Idealize.ShloMosaic Idealize.SL.Sem

/-- The idealized kernel runs and leaves its arguments alone: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments alone: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on `a` and `b`, both programs end with the reduce-scattered product of `a` and `b`. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v2_eq, Cert.ReduceScatter.Reference.value_eq, (hagree c).1, (hagree c).2,
    Cert.ReduceScatter.Kernel.value_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
